-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x16 : Shape := ⟨2, ![16, 16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16x16 .f32) (main_arg6 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x16 .f32) (main_arg6 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x16 : Shape := ⟨2, ![16, 16]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S100000x16 : Shape := ⟨2, ![100000, 16]⟩
abbrev S5000x512 : Shape := ⟨2, ![5000, 512]⟩
abbrev S5000x16 : Shape := ⟨2, ![5000, 16]⟩
abbrev S3300000x1 : Shape := ⟨2, ![3300000, 1]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 139
  | .vmem => 10
  | .smem => 0
  | _ => 0

abbrev hbmTy0_0 (i : Nat) : BufTy := match i % 128 with
  | 0 => ⟨S100000x512, .f32⟩
  | 1 => ⟨S2x3200000, .i32⟩
  | 2 => ⟨S3200000, .f32⟩
  | 3 => ⟨S512x16, .f32⟩
  | 4 => ⟨S16, .f32⟩
  | 5 => ⟨S16x16, .f32⟩
  | 6 => ⟨S16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S100000, .f32⟩
  | 16 => ⟨S3300000, .f32⟩
  | 17 => ⟨S100000x16, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x16, .f32⟩
  | 59 => ⟨S3300000x1, .f32⟩
  | 60 => ⟨S3300000x16, .f32⟩
  | 61 => ⟨S3300000x16, .f32⟩
  | 62 => ⟨S_, .f32⟩
  | 63 => ⟨S100000x16, .f32⟩
  | 64 => ⟨S3300000x1, .i32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S100000x16, .f32⟩
  | 73 => ⟨S_, .f32⟩
  | 74 => ⟨S100000, .f32⟩
  | 75 => ⟨S3300000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S_, .f32⟩
  | 83 => ⟨S100000, .f32⟩
  | 84 => ⟨S100000, .f32⟩
  | 85 => ⟨S_, .i32⟩
  | 86 => ⟨S3300000, .i32⟩
  | 87 => ⟨S3300000, .i1⟩
  | 88 => ⟨S_, .i32⟩
  | 89 => ⟨S3300000, .i32⟩
  | 90 => ⟨S3300000, .i32⟩
  | 91 => ⟨S3300000, .i32⟩
  | 92 => ⟨S3300000x1, .i32⟩
  | 93 => ⟨S3300000, .f32⟩
  | 94 => ⟨S3300000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S3300000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x16, .f32⟩
  | 114 => ⟨S3300000x1, .f32⟩
  | 115 => ⟨S3300000x16, .f32⟩
  | 116 => ⟨S3300000x16, .f32⟩
  | 117 => ⟨S_, .f32⟩
  | 118 => ⟨S100000x16, .f32⟩
  | 119 => ⟨S3300000x1, .i32⟩
  | 120 => ⟨S100000x16, .f32⟩
  | 121 => ⟨S1x16, .f32⟩
  | 122 => ⟨S100000x16, .f32⟩
  | 123 => ⟨S100000x16, .f32⟩
  | 124 => ⟨S_, .f32⟩
  | 125 => ⟨S100000, .f32⟩
  | 126 => ⟨S_, .f32⟩
  | 127 => ⟨S100000, .f32⟩
  | _ => ⟨S100000x512, .f32⟩

abbrev hbmTy0_1 (i : Nat) : BufTy := match i % 128 with
  | 0 => ⟨S100000, .f32⟩
  | 1 => ⟨S100000x1, .f32⟩
  | 2 => ⟨S100000x16, .f32⟩
  | 3 => ⟨S100000x16, .f32⟩
  | 4 => ⟨S100000x16, .f32⟩
  | 5 => ⟨S_, .f32⟩
  | 6 => ⟨S100000, .f32⟩
  | 7 => ⟨S100000x1, .f32⟩
  | 8 => ⟨S100000x1, .f32⟩
  | 9 => ⟨S100000x16, .f32⟩
  | 10 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x16, .f32⟩
  | .local _ .vmem, ⟨8, _⟩ => ⟨S5000x16, .f32⟩
  | .local _ .vmem, ⟨9, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_call2_v0 : Ref sig .tc := ⟨.hbm, 82, rfl⟩
abbrev main_call2_v1 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call3_cst : Ref sig .tc := ⟨.hbm, 124, rfl⟩
abbrev main_call3_v0 : Ref sig .tc := ⟨.hbm, 125, rfl⟩
abbrev main_call3_cst_0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_v6 : Ref sig .tc := ⟨.hbm, 132, rfl⟩
abbrev main_call3_cst_1 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_v90 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S5000x512_S512x16_S5000x16_1_0_0_1_n_n_wf : DotDims.WF S5000x512 S512x16 S5000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x16_S5000x16_1_0_0_1_n_n_wf : DotDims.WF S5000x16 S16x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)

variable [Facts₀]

def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x16 : Shape := ⟨2, ![16, 16]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S100000x16 : Shape := ⟨2, ![100000, 16]⟩
abbrev S3300000x1 : Shape := ⟨2, ![3300000, 1]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 139
  | .vmem => 0
  | .smem => 0
  | _ => 0

abbrev hbmTy0_0 (i : Nat) : BufTy := match i % 128 with
  | 0 => ⟨S100000x512, .f32⟩
  | 1 => ⟨S2x3200000, .i32⟩
  | 2 => ⟨S3200000, .f32⟩
  | 3 => ⟨S512x16, .f32⟩
  | 4 => ⟨S16, .f32⟩
  | 5 => ⟨S16x16, .f32⟩
  | 6 => ⟨S16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S100000, .f32⟩
  | 16 => ⟨S3300000, .f32⟩
  | 17 => ⟨S100000x16, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x16, .f32⟩
  | 59 => ⟨S3300000x1, .f32⟩
  | 60 => ⟨S3300000x16, .f32⟩
  | 61 => ⟨S3300000x16, .f32⟩
  | 62 => ⟨S_, .f32⟩
  | 63 => ⟨S100000x16, .f32⟩
  | 64 => ⟨S3300000x1, .i32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S100000x16, .f32⟩
  | 73 => ⟨S_, .f32⟩
  | 74 => ⟨S100000, .f32⟩
  | 75 => ⟨S3300000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S_, .f32⟩
  | 83 => ⟨S100000, .f32⟩
  | 84 => ⟨S100000, .f32⟩
  | 85 => ⟨S_, .i32⟩
  | 86 => ⟨S3300000, .i32⟩
  | 87 => ⟨S3300000, .i1⟩
  | 88 => ⟨S_, .i32⟩
  | 89 => ⟨S3300000, .i32⟩
  | 90 => ⟨S3300000, .i32⟩
  | 91 => ⟨S3300000, .i32⟩
  | 92 => ⟨S3300000x1, .i32⟩
  | 93 => ⟨S3300000, .f32⟩
  | 94 => ⟨S3300000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S3300000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x16, .f32⟩
  | 114 => ⟨S3300000x1, .f32⟩
  | 115 => ⟨S3300000x16, .f32⟩
  | 116 => ⟨S3300000x16, .f32⟩
  | 117 => ⟨S_, .f32⟩
  | 118 => ⟨S100000x16, .f32⟩
  | 119 => ⟨S3300000x1, .i32⟩
  | 120 => ⟨S100000x16, .f32⟩
  | 121 => ⟨S1x16, .f32⟩
  | 122 => ⟨S100000x16, .f32⟩
  | 123 => ⟨S100000x16, .f32⟩
  | 124 => ⟨S_, .f32⟩
  | 125 => ⟨S100000, .f32⟩
  | 126 => ⟨S_, .f32⟩
  | 127 => ⟨S100000, .f32⟩
  | _ => ⟨S100000x512, .f32⟩

abbrev hbmTy0_1 (i : Nat) : BufTy := match i % 128 with
  | 0 => ⟨S100000, .f32⟩
  | 1 => ⟨S100000x1, .f32⟩
  | 2 => ⟨S100000x16, .f32⟩
  | 3 => ⟨S100000x16, .f32⟩
  | 4 => ⟨S100000x16, .f32⟩
  | 5 => ⟨S_, .f32⟩
  | 6 => ⟨S100000, .f32⟩
  | 7 => ⟨S100000x1, .f32⟩
  | 8 => ⟨S100000x1, .f32⟩
  | 9 => ⟨S100000x16, .f32⟩
  | 10 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_call2_v0 : Ref sig .tc := ⟨.hbm, 82, rfl⟩
abbrev main_call2_v1 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call3_cst : Ref sig .tc := ⟨.hbm, 124, rfl⟩
abbrev main_call3_v0 : Ref sig .tc := ⟨.hbm, 125, rfl⟩
abbrev main_call3_cst_0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_v6 : Ref sig .tc := ⟨.hbm, 132, rfl⟩
abbrev main_call3_cst_1 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_v90 : Ref sig .tc := ⟨.hbm, 138, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.Gcn.lean ====
/-
  The graph-convolution network both programs compute, as pure functions of arrays.

  Both programs run the same two-layer network on a graph of 100000 nodes and 3200000 weighted edges, to which a
  self-loop of weight one is added at every node: with `row`, `col` the end points of the 3300000 edges and `ew`
  their weights,
    deg c   = the sum of ew e over the edges e with col e = c,
    dinv    = deg^(-1/2) where deg > 0, and 0 elsewhere,
    norm e  = dinv (row e) · ew e · dinv (col e),
    conv h b = (the sum over the edges e into each node of h (row e) · norm e) + b,
  and the result is log_softmax (conv (relu (conv (x·W1) b1) · W2) b2) along the 16 features.
  The two programs differ only in how the two dense products x·W1 and h·W2 are computed, so everything else is
  named here once, as functions of the product's value `h`: the two sides are then compared at the products alone,
  and nothing below ever opens a scatter, a gather or the softmax.
-/
import proofs.«143029_j62955630625290_1_alg».proof.Proof.Gen.KernelIdeal

noncomputable section

namespace Cert.KernelIdeal.Gcn

open Idealize.ShloMosaic Cert.KernelIdeal Cert.KernelIdeal.Gen

variable {F : FTy → Type} [FloatOps F]

/-- The edges' first end points (row 0 of the edge list), then every node once for its self-loop. -/
def rowOf (ei : (⟨S2x3200000, .i32⟩ : BufTy).Contents (Elt F)) : (⟨S3300000, .i32⟩ : BufTy).Contents (Elt F) :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The edges' second end points (row 1 of the edge list), then every node once for its self-loop. -/
def colOf (ei : (⟨S2x3200000, .i32⟩ : BufTy).Contents (Elt F)) : (⟨S3300000, .i32⟩ : BufTy).Contents (Elt F) :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- The edges' weights, then weight one for every self-loop. -/
def ewOf (w : (⟨S3200000, .f32⟩ : BufTy).Contents (Elt F)) : (⟨S3300000, .f32⟩ : BufTy).Contents (Elt F) :=
  concatenate S3300000 0 [⟨S3200000, w⟩, ⟨S100000, (broadcastInDim S100000 ![] bcast_S_S100000 (constant S_ .f32 0x3F800000#32))⟩] concatenates_S3200000_S100000_S3300000_d0

/-- A node's weighted in-degree: the weights of the edges that end in it, summed. -/
def degOf (col : (⟨S3300000, .i32⟩ : BufTy).Contents (Elt F)) (ew : (⟨S3300000, .f32⟩ : BufTy).Contents (Elt F)) :
    (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 col) ew

/-- deg^(-1/2) where the degree is positive, zero elsewhere. -/
def dinvOf (col : (⟨S3300000, .i32⟩ : BufTy).Contents (Elt F)) (ew : (⟨S3300000, .f32⟩ : BufTy).Contents (Elt F)) :
    (⟨S100000, .f32⟩ : BufTy).Contents (Elt F) :=
  select (cmpf .ogt (degOf col ew) (broadcastInDim S100000 ![] bcast_S_S100000 (constant S_ .f32 0x00000000#32))) (Host.rsqrt (degOf col ew)) (broadcastInDim S100000 ![] bcast_S_S100000 (id (constant S_ .f32 0x00000000#32)))

/-- A node index as a gather takes it: a negative one counts from the end. -/
def wrapOf (v : (⟨S3300000, .i32⟩ : BufTy).Contents (Elt F)) : (⟨S3300000, .i32⟩ : BufTy).Contents (Elt F) :=
  select (cmpi .slt v (broadcastInDim S3300000 ![] bcast_S_S3300000 (constantI S_ 32 0#32))) (addi v (broadcastInDim S3300000 ![] bcast_S_S3300000 (constantI S_ 32 100000#32))) v

/-- An edge's coefficient: dinv (row e) · ew e · dinv (col e). -/
def normOf (row col : (⟨S3300000, .i32⟩ : BufTy).Contents (Elt F)) (ew : (⟨S3300000, .f32⟩ : BufTy).Contents (Elt F)) :
    (⟨S3300000, .f32⟩ : BufTy).Contents (Elt F) :=
  mulf (mulf (Host.gather gather_S100000_S3300000x1_S3300000_n_0_n_n_0_1_1 (dinvOf col ew) (broadcastInDim S3300000x1 ![0] bcast_S3300000_S3300000x1_0 (wrapOf row))) ew) (Host.gather gather_S100000_S3300000x1_S3300000_n_0_n_n_0_1_1 (dinvOf col ew) (broadcastInDim S3300000x1 ![0] bcast_S3300000_S3300000x1_0 (wrapOf col)))

/-- One graph convolution of the node features `h` with bias `b`: every edge carries its source's features times
    its coefficient to its target, where they are summed; the bias is added to every node. -/
def convOf (row col : (⟨S3300000, .i32⟩ : BufTy).Contents (Elt F)) (ew : (⟨S3300000, .f32⟩ : BufTy).Contents (Elt F))
    (h : (⟨S100000x16, .f32⟩ : BufTy).Contents (Elt F)) (b : (⟨S16, .f32⟩ : BufTy).Contents (Elt F)) :
    (⟨S100000x16, .f32⟩ : BufTy).Contents (Elt F) :=
  addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 col) (mulf (Host.gather gather_S100000x16_S3300000x1_S3300000x16_1_0_n_n_0_1_116 h (broadcastInDim S3300000x1 ![0] bcast_S3300000_S3300000x1_0 (wrapOf row))) (broadcastInDim S3300000x16 ![0, 1] bcast_S3300000x1_S3300000x16_0_1 (broadcastInDim S3300000x1 ![0] bcast_S3300000_S3300000x1_0 (normOf row col ew))))) (broadcastInDim S100000x16 ![0, 1] bcast_S1x16_S100000x16_0_1 (broadcastInDim S1x16 ![1] bcast_S16_S1x16_1 b))

/-- max(a, 0), entry by entry. -/
def reluOf (a : (⟨S100000x16, .f32⟩ : BufTy).Contents (Elt F)) : (⟨S100000x16, .f32⟩ : BufTy).Contents (Elt F) :=
  maximumf a (broadcastInDim S100000x16 ![] bcast_S_S100000x16 (constant S_ .f32 0x00000000#32))

/-- A row minus its maximum. -/
def shiftOf (a : (⟨S100000x16, .f32⟩ : BufTy).Contents (Elt F)) : (⟨S100000x16, .f32⟩ : BufTy).Contents (Elt F) :=
  subf a (broadcastInDim S100000x16 ![0, 1] bcast_S100000x1_S100000x16_0_1 (broadcastInDim S100000x1 ![0] bcast_S100000_S100000x1_0 (maximumf (broadcastInDim S100000 ![] bcast_S_S100000 (constant S_ .f32 0xFF800000#32)) (Host.reduce FloatOps.maximumf a (constant S_ .f32 0xFF800000#32) reducesTo_S100000x16_S100000_d1 h_S_))))

/-- log_softmax along the features: the shifted row minus the logarithm of the sum of its exponentials. -/
def logsmOf (a : (⟨S100000x16, .f32⟩ : BufTy).Contents (Elt F)) : (⟨S100000x16, .f32⟩ : BufTy).Contents (Elt F) :=
  subf (shiftOf a) (broadcastInDim S100000x16 ![0, 1] bcast_S100000x1_S100000x16_0_1 (Host.log (broadcastInDim S100000x1 ![0] bcast_S100000_S100000x1_0 (Host.reduceAdd (Host.exp (shiftOf a)) (constant S_ .f32 0x00000000#32) reducesTo_S100000x16_S100000_d1 h_S_))))

/-- The whole network on the inputs, the two dense products left as parameters: the edge arrays with their self-loops,
    a convolution of the first product and a relu, a convolution of the second product, the log-softmax. -/
def netOf (dot1 : (⟨S100000x512, .f32⟩ : BufTy).Contents (Elt F) → (⟨S512x16, .f32⟩ : BufTy).Contents (Elt F) → (⟨S100000x16, .f32⟩ : BufTy).Contents (Elt F))
    (dot2 : (⟨S100000x16, .f32⟩ : BufTy).Contents (Elt F) → (⟨S16x16, .f32⟩ : BufTy).Contents (Elt F) → (⟨S100000x16, .f32⟩ : BufTy).Contents (Elt F))
    (x : (⟨S100000x512, .f32⟩ : BufTy).Contents (Elt F)) (ei : (⟨S2x3200000, .i32⟩ : BufTy).Contents (Elt F))
    (w : (⟨S3200000, .f32⟩ : BufTy).Contents (Elt F)) (W1 : (⟨S512x16, .f32⟩ : BufTy).Contents (Elt F))
    (b1 : (⟨S16, .f32⟩ : BufTy).Contents (Elt F)) (W2 : (⟨S16x16, .f32⟩ : BufTy).Contents (Elt F))
    (b2 : (⟨S16, .f32⟩ : BufTy).Contents (Elt F)) : (⟨S100000x16, .f32⟩ : BufTy).Contents (Elt F) :=
  logsmOf (convOf (rowOf ei) (colOf ei) (ewOf w)
    (dot2 (reluOf (convOf (rowOf ei) (colOf ei) (ewOf w) (dot1 x W1) b1)) W2) b2)

end Cert.KernelIdeal.Gcn

end
-- ==== Proof.HostStages0.lean ====
/-
  The first host stretch of the kernel's program, read as a function of the buffers it starts from.

  From ANY buffer contents `V` the ten operations before the first region build the edge end points and the edge
  weights with the self-loops appended (Gcn.lean's `rowOf`, `colOf`, `ewOf` of the arguments), and write nothing
  else that is read later: the arguments come through unchanged.
-/
import proofs.«143029_j62955630625290_1_alg».proof.Proof.Gcn
import proofs.«143029_j62955630625290_1_alg».proof.Proof.Gen.KernelIdeal.Launch
import Idealize.ShloMosaic.Lib.StableHlo.Run

set_option maxRecDepth 16384

noncomputable section

namespace Cert.KernelIdeal.HostStages

open Idealize.ShloMosaic Idealize.ShloMosaic.TcCoe Idealize.ShloMosaic.StableHlo
open Cert.KernelIdeal Cert.KernelIdeal.Gen

variable {F : FTy → Type} [FloatOps F] (V : Valuation τ sig (Elt F))

/-! ## The first stretch: the edge arrays -/

theorem s0_row : after hostOps0 V (Proc.devRef .tc main_v3) = Gcn.rowOf (V (Proc.devRef .tc main_arg1)) := by
  after_results <;> rfl
theorem s0_col : after hostOps0 V (Proc.devRef .tc main_v6) = Gcn.colOf (V (Proc.devRef .tc main_arg1)) := by
  after_results <;> rfl
theorem s0_ew : after hostOps0 V (Proc.devRef .tc main_v8) = Gcn.ewOf (V (Proc.devRef .tc main_arg2)) := by
  after_results <;> rfl

theorem s0_arg0 : after hostOps0 V (Proc.devRef .tc main_arg0) = V (Proc.devRef .tc main_arg0) := by after_results_simp
theorem s0_arg3 : after hostOps0 V (Proc.devRef .tc main_arg3) = V (Proc.devRef .tc main_arg3) := by after_results_simp
theorem s0_arg4 : after hostOps0 V (Proc.devRef .tc main_arg4) = V (Proc.devRef .tc main_arg4) := by after_results_simp
theorem s0_arg5 : after hostOps0 V (Proc.devRef .tc main_arg5) = V (Proc.devRef .tc main_arg5) := by after_results_simp
theorem s0_arg6 : after hostOps0 V (Proc.devRef .tc main_arg6) = V (Proc.devRef .tc main_arg6) := by after_results_simp

end Cert.KernelIdeal.HostStages

end
-- ==== Proof.HostStages1.lean ====
/-
  The second host stretch of the kernel's program, read as a function of the buffers it starts from.

  From ANY buffer contents `V` the 54 operations between the two regions are one graph convolution, with bias b1, of
  the features they find in `%9`, and a relu (Gcn.lean's `convOf`, `reluOf`). They write only their own results: the
  edge arrays and the arguments read again later come through unchanged.
-/
import proofs.«143029_j62955630625290_1_alg».proof.Proof.Gcn
import proofs.«143029_j62955630625290_1_alg».proof.Proof.Gen.KernelIdeal.Launch
import Idealize.ShloMosaic.Lib.StableHlo.Run

set_option maxRecDepth 16384
set_option Elab.async false

noncomputable section

namespace Cert.KernelIdeal.HostStages

open Idealize.ShloMosaic Idealize.ShloMosaic.TcCoe Idealize.ShloMosaic.StableHlo
open Cert.KernelIdeal Cert.KernelIdeal.Gen

variable {F : FTy → Type} [FloatOps F] (V : Valuation τ sig (Elt F))

/-! ## The second stretch: a graph convolution and a relu of `%9` -/

set_option maxHeartbeats 4000000 in
theorem s1_out : after hostOps1_3 (after hostOps1_2 (after hostOps1_1 (after hostOps1 V))) (Proc.devRef .tc main_v49)
    = Gcn.reluOf (Gcn.convOf (V (Proc.devRef .tc main_v3)) (V (Proc.devRef .tc main_v6)) (V (Proc.devRef .tc main_v8))
        (V (Proc.devRef .tc main_v9)) (V (Proc.devRef .tc main_arg4))) := by
  after_results_simp
  simp only [TRef.ofBuf, TRef.toBuf, cast_eq]
  rfl

set_option maxHeartbeats 4000000 in
theorem s1_row : after hostOps1_3 (after hostOps1_2 (after hostOps1_1 (after hostOps1 V))) (Proc.devRef .tc main_v3) = V (Proc.devRef .tc main_v3) := by
  after_results_simp
set_option maxHeartbeats 4000000 in
theorem s1_col : after hostOps1_3 (after hostOps1_2 (after hostOps1_1 (after hostOps1 V))) (Proc.devRef .tc main_v6) = V (Proc.devRef .tc main_v6) := by
  after_results_simp
set_option maxHeartbeats 4000000 in
theorem s1_ew : after hostOps1_3 (after hostOps1_2 (after hostOps1_1 (after hostOps1 V))) (Proc.devRef .tc main_v8) = V (Proc.devRef .tc main_v8) := by
  after_results_simp
set_option maxHeartbeats 4000000 in
theorem s1_arg5 : after hostOps1_3 (after hostOps1_2 (after hostOps1_1 (after hostOps1 V))) (Proc.devRef .tc main_arg5) = V (Proc.devRef .tc main_arg5) := by
  after_results_simp
set_option maxHeartbeats 4000000 in
theorem s1_arg6 : after hostOps1_3 (after hostOps1_2 (after hostOps1_1 (after hostOps1 V))) (Proc.devRef .tc main_arg6) = V (Proc.devRef .tc main_arg6) := by
  after_results_simp

end Cert.KernelIdeal.HostStages

end
-- ==== Proof.LibTypedRef.lean ====
/-
  A typed reference's two transports cancel.

  A host operation of a module-local function is stated over typed references: it reads an operand's buffer contents
  at the value's type (`ofBuf`) and writes its result back at the buffer's type (`toBuf`), each a transport along the
  reference's proof that the two types are one. Whatever that proof is, writing a value and reading it back through
  the same reference gives the value: so in a composed term of such operations every inner pair of transports drops
  out, without the buffer's type ever being looked up.
-/
import Idealize.ShloMosaic.Lib.StableHlo

namespace Cert.LibTypedRef

open Idealize.ShloMosaic Idealize.ShloMosaic.StableHlo

/-- Contents written through a typed reference and read back through it are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

/-- And the other way round. -/
theorem toBuf_ofBuf {sig : RefSig} {Val : EltTy → Type} {T : BufTy} (x : TRef sig T) (v : x.ref.ty.Contents Val) :
    x.toBuf (x.ofBuf v) = v := by
  obtain ⟨r, h, h2, h3⟩ := x
  subst h
  rfl

end Cert.LibTypedRef
-- ==== Proof.HostStages2.lean ====
/-
  The third host stretch of the kernel's program, read as a function of the buffers it starts from.

  From ANY buffer contents `V` the 66 operations after the second region are one graph convolution, with bias b2, of
  the features they find in `%50`, and the log-softmax along the 16 features (Gcn.lean's `convOf`, `logsmOf`).
-/
import proofs.«143029_j62955630625290_1_alg».proof.Proof.Gcn
import proofs.«143029_j62955630625290_1_alg».proof.Proof.Gen.KernelIdeal.Launch
import Idealize.ShloMosaic.Lib.StableHlo.Run
import proofs.«143029_j62955630625290_1_alg».proof.Proof.LibTypedRef

set_option maxRecDepth 16384
set_option maxHeartbeats 4000000

noncomputable section

namespace Cert.KernelIdeal.HostStages

open Idealize.ShloMosaic Idealize.ShloMosaic.TcCoe Idealize.ShloMosaic.StableHlo
open Cert.KernelIdeal Cert.KernelIdeal.Gen

variable {F : FTy → Type} [FloatOps F] (V : Valuation τ sig (Elt F))

/-! ## The third stretch: a graph convolution and the log-softmax of `%50` -/

/-- Its first 51 operations: the convolution, left in `%89`. -/
theorem s2_conv : after hostOps2_2 (after hostOps2_1 (after hostOps2 V)) (Proc.devRef .tc main_v89)
    = Gcn.convOf (V (Proc.devRef .tc main_v3)) (V (Proc.devRef .tc main_v6)) (V (Proc.devRef .tc main_v8))
        (V (Proc.devRef .tc main_v50)) (V (Proc.devRef .tc main_arg6)) := by
  after_results_simp
  simp only [TRef.ofBuf, TRef.toBuf, cast_eq]
  rfl

/-- Its last 15 operations: the log-softmax of what they find in `%89`. -/
theorem s2_logsm : after hostOps2_3 V (Proc.devRef .tc main_v90) = Gcn.logsmOf (V (Proc.devRef .tc main_v89)) := by
  after_results
  simp only [Cert.LibTypedRef.ofBuf_toBuf]
  rfl

theorem s2_out : after hostOps2_3 (after hostOps2_2 (after hostOps2_1 (after hostOps2 V))) (Proc.devRef .tc main_v90)
    = Gcn.logsmOf (Gcn.convOf (V (Proc.devRef .tc main_v3)) (V (Proc.devRef .tc main_v6)) (V (Proc.devRef .tc main_v8))
        (V (Proc.devRef .tc main_v50)) (V (Proc.devRef .tc main_arg6))) :=
  (s2_logsm (after hostOps2_2 (after hostOps2_1 (after hostOps2 V)))).trans (congrArg Gcn.logsmOf (s2_conv V))

end Cert.KernelIdeal.HostStages

end
-- ==== Proof.Dense0.lean ====
/-
  What region 0 leaves in its output array: the dense product of its two operand arrays.

  The region walks the 100000 rows in 20 blocks of 5000. At a point the body loads the block's 5000×512 rows of the left
  operand and the whole 512×16 right operand, rounds both to bf16 (the identity on the extended reals), multiplies them
  on the matrix unit into a zero accumulator and stores the 5000×16 product: entry (p, q) of the block is
  ∑ₖ x(p, k) · w(k, q). A row of the block is row 5000·t + p of the array, and the product of a row by the right
  operand does not look at the other rows, so each block written back is that block of the whole product; the 20
  blocks tile the rows, hence the array ends holding the whole product — spelt here as the host's own plain
  `dot_general`, which at the extended reals is that same sum.
-/
import proofs.«143029_j62955630625290_1_alg».proof.Proof.Gen.KernelIdeal.Frame
import Idealize.ShloMosaic.Lib.StackMember

set_option maxRecDepth 16384

noncomputable section

namespace Cert.KernelIdeal.Dense0

open Idealize.ShloMosaic Idealize.ShloMosaic.TcCoe Idealize.SL.Sem
open Idealize.ShloMosaic.Pipeline (Dat Cfg Window)
open Idealize.ShloMosaic.ValueIdx Idealize.ShloMosaic.StackMember
open Cert.KernelIdeal Cert.KernelIdeal.Gen

/-- The whole product of a 100000×512 array by a 512×16 array. -/
abbrev prod (x : FVec Ideal S100000x512 .f32) (w : FVec Ideal S512x16 .f32) : FVec Ideal S100000x16 .f32 :=
  Host.dotGeneral (DotDims.plain 100000 512 16) none x w

theorem hz : (![0, 0] : Fin 2 → Nat) = fun _ => 0 := funext fun a => by fin_cases a <;> rfl

/-- The body's value at entry (p, q) of its block: the row p of the left block times the column q of the right one. -/
theorem pay_apply (x0 : FVec Ideal S5000x512 .f32) (x1 : FVec Ideal S512x16 .f32) (p : Fin 5000) (q : Fin 16) :
    k0_pay1 (F := Ideal) x0 x1 (ix2 p q) = ∑ k : Fin 512, x0 (ix2 p k) * x1 (ix2 k q) := by
  have e : k0_pay1 (F := Ideal) x0 x1
      = Host.dotGeneral (DotDims.plain 5000 512 16) none (φ₁ := .bf16) (φ₂ := .bf16) x0 x1 := by
    unfold k0_pay1
    exact matmul_zero_eq_dotGeneral (DotDims.plain 5000 512 16) none (φ₁ := .bf16) (φ₂ := .bf16) x0 x1
  rw [e]
  exact dotGeneral_plain_apply none (φ₁ := .bf16) (φ₂ := .bf16) x0 x1 p q

/-- A block's entry is the whole product's entry in the array's row `a`, when the block's row p holds the array's row a
    and the right block is the right array. -/
theorem pay_eq (x0 : FVec Ideal S5000x512 .f32) (x1 : FVec Ideal S512x16 .f32)
    (X : FVec Ideal S100000x512 .f32) (W : FVec Ideal S512x16 .f32) (p : Fin 5000) (q : Fin 16) (a : Fin 100000)
    (hx : ∀ k : Fin 512, x0 (ix2 p k) = X (ix2 a k)) (hw : ∀ k : Fin 512, x1 (ix2 k q) = W (ix2 k q)) :
    k0_pay1 (F := Ideal) x0 x1 (ix2 p q) = prod X W (ix2 a q) := by
  rw [pay_apply]
  unfold prod
  rw [dotGeneral_plain_apply]
  exact Finset.sum_congr rfl fun k _ => by rw [hx k, hw k]

/-- The index maps over the grid: the left operand's and the output's blocks move together down the rows, block t at
    point t; the right operand's block stays at the origin; nothing moves along the columns. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every block of rows is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

variable (V : (c : Dev nD) → (b : Ref sig .tc) → Buf (Elt Ideal) ((c : Thread nD τ).loc b))

/-- What point t writes back is block t of the whole product of the operand arrays as the region finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  obtain ⟨e0, e1, e2, e3, e4, e5⟩ := idx_facts t
  refine funext fun (j : S5000x16.Idx) => ?_
  obtain ⟨p, q, rfl⟩ : ∃ (p : Fin 5000) (q : Fin 16), j = ix2 p q := ⟨j 0, j 1, eq_ix2 j⟩
  have ha : win0_2.index t (0 : Fin 2) * 5000 + p.val < 100000 := by have := p.isLt; omega
  have hi : ((cfg0.win 2).blk t).view.emb (ix2 p q) = (ix2 (⟨win0_2.index t (0 : Fin 2) * 5000 + p.val, ha⟩ : Fin 100000) q : S100000x16.Idx) := by
    funext ax; apply Fin.ext
    match ax with
    | ⟨0, _⟩ => show win0_2.index t (0 : Fin 2) * 5000 + 1 * p.val = win0_2.index t (0 : Fin 2) * 5000 + p.val; omega
    | ⟨1, _⟩ => show win0_2.index t (1 : Fin 2) * 16 + 1 * q.val = q.val; omega
  show k0_pay1 (F := Ideal) (iblk0 V c 0 t) (iblk0 V c 1 t) (ix2 p q) = prod (V c main_arg0) (V c main_arg3) (((cfg0.win 2).blk t).view.emb (ix2 p q))
  rw [hi]
  refine pay_eq (iblk0 V c 0 t) (iblk0 V c 1 t) (V c main_arg0) (V c main_arg3) p q _ (fun k => ?_) (fun k => ?_)
  · show V c main_arg0 (((cfg0.win 0).blk t).view.emb (ix2 p k)) = V c main_arg0 (ix2 (⟨win0_2.index t (0 : Fin 2) * 5000 + p.val, ha⟩ : Fin 100000) k)
    refine congrArg (V c main_arg0) ?_
    funext ax; apply Fin.ext
    match ax with
    | ⟨0, _⟩ => show win0_0.index t (0 : Fin 2) * 5000 + 1 * p.val = win0_2.index t (0 : Fin 2) * 5000 + p.val; omega
    | ⟨1, _⟩ => show win0_0.index t (1 : Fin 2) * 512 + 1 * k.val = k.val; omega
  · show V c main_arg3 (((cfg0.win 1).blk t).view.emb (ix2 k q)) = V c main_arg3 (ix2 k q)
    refine congrArg (V c main_arg3) ?_
    funext ax; apply Fin.ext
    match ax with
    | ⟨0, _⟩ => show win0_1.index t (0 : Fin 2) * 512 + 1 * k.val = k.val; omega
    | ⟨1, _⟩ => show win0_1.index t (1 : Fin 2) * 16 + 1 * q.val = q.val; omega

/-- An index of the output array is in point t's block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v9).slice (win0_2.rect t)).set ↔ _
  rw [View.set_slice_whole, Rect.mem_set_unit]
  exact Iff.rfl

/-- The array after the region: the whole product of the operand arrays as the region finds them. -/
theorem final (c : Dev nD) : (dat0 V c).arrAt 2 cfg0.N = prod (V c main_arg0) (V c main_arg3) :=
  (dat0 V c).arrAt_eq_of_cover 2 (prod (V c main_arg0) (V c main_arg3)) (fun t _ => flushed_eq V c t) fun i => by
    have hi0 : (i 0).val < 100000 := (i 0).isLt
    have hi1 : (i 1).val < 16 := (i 1).isLt
    obtain ⟨t, ht⟩ := idx_onto ⟨(i 0).val / 5000, by omega⟩
    have q0 : win0_2.index t (0 : Fin 2) = (i 0).val / 5000 := congrFun ht 0
    have q1 : win0_2.index t (1 : Fin 2) = 0 := congrFun ht 1
    refine ⟨t, flush0_2 t, ?_⟩
    rw [mem_blk]
    intro a
    match a with
    | ⟨0, _⟩ => show win0_2.index t (0 : Fin 2) * 5000 ≤ (i 0).val ∧ (i 0).val < win0_2.index t (0 : Fin 2) * 5000 + 5000; omega
    | ⟨1, _⟩ => show win0_2.index t (1 : Fin 2) * 16 ≤ (i 1).val ∧ (i 1).val < win0_2.index t (1 : Fin 2) * 16 + 16; omega

end Cert.KernelIdeal.Dense0

end
-- ==== Proof.Dense1.lean ====
/-
  What region 1 leaves in its output array: the dense product of its two operand arrays.

  The region walks the 100000 rows in 20 blocks of 5000. At a point the body loads the block's 5000×16 rows of the left
  operand and the whole 16×16 right operand, rounds both to bf16 (the identity on the extended reals), multiplies them
  on the matrix unit into a zero accumulator and stores the 5000×16 product: entry (p, q) of the block is
  ∑ₖ x(p, k) · w(k, q). A row of the block is row 5000·t + p of the array, and the product of a row by the right
  operand does not look at the other rows, so each block written back is that block of the whole product; the 20
  blocks tile the rows, hence the array ends holding the whole product — spelt here as the host's own plain
  `dot_general`, which at the extended reals is that same sum.
-/
import proofs.«143029_j62955630625290_1_alg».proof.Proof.Gen.KernelIdeal.Frame
import Idealize.ShloMosaic.Lib.StackMember

set_option maxRecDepth 16384

noncomputable section

namespace Cert.KernelIdeal.Dense1

open Idealize.ShloMosaic Idealize.ShloMosaic.TcCoe Idealize.SL.Sem
open Idealize.ShloMosaic.Pipeline (Dat Cfg Window)
open Idealize.ShloMosaic.ValueIdx Idealize.ShloMosaic.StackMember
open Cert.KernelIdeal Cert.KernelIdeal.Gen

/-- The whole product of a 100000×16 array by a 16×16 array. -/
abbrev prod (x : FVec Ideal S100000x16 .f32) (w : FVec Ideal S16x16 .f32) : FVec Ideal S100000x16 .f32 :=
  Host.dotGeneral (DotDims.plain 100000 16 16) none x w

theorem hz : (![0, 0] : Fin 2 → Nat) = fun _ => 0 := funext fun a => by fin_cases a <;> rfl

/-- The body's value at entry (p, q) of its block: the row p of the left block times the column q of the right one. -/
theorem pay_apply (x0 : FVec Ideal S5000x16 .f32) (x1 : FVec Ideal S16x16 .f32) (p : Fin 5000) (q : Fin 16) :
    k1_pay1 (F := Ideal) x0 x1 (ix2 p q) = ∑ k : Fin 16, x0 (ix2 p k) * x1 (ix2 k q) := by
  have e : k1_pay1 (F := Ideal) x0 x1
      = Host.dotGeneral (DotDims.plain 5000 16 16) none (φ₁ := .bf16) (φ₂ := .bf16) x0 x1 := by
    unfold k1_pay1
    rw [show shapeCast S5000x16 x0 shapeCasts_S5000x16_S5000x16 = x0 from shapeCast_self x0 _]
    exact matmul_zero_eq_dotGeneral (DotDims.plain 5000 16 16) none (φ₁ := .bf16) (φ₂ := .bf16) x0 x1
  rw [e]
  exact dotGeneral_plain_apply none (φ₁ := .bf16) (φ₂ := .bf16) x0 x1 p q

/-- A block's entry is the whole product's entry in the array's row `a`, when the block's row p holds the array's row a
    and the right block is the right array. -/
theorem pay_eq (x0 : FVec Ideal S5000x16 .f32) (x1 : FVec Ideal S16x16 .f32)
    (X : FVec Ideal S100000x16 .f32) (W : FVec Ideal S16x16 .f32) (p : Fin 5000) (q : Fin 16) (a : Fin 100000)
    (hx : ∀ k : Fin 16, x0 (ix2 p k) = X (ix2 a k)) (hw : ∀ k : Fin 16, x1 (ix2 k q) = W (ix2 k q)) :
    k1_pay1 (F := Ideal) x0 x1 (ix2 p q) = prod X W (ix2 a q) := by
  rw [pay_apply]
  unfold prod
  rw [dotGeneral_plain_apply]
  exact Finset.sum_congr rfl fun k _ => by rw [hx k, hw k]

/-- The index maps over the grid: the left operand's and the output's blocks move together down the rows, block t at
    point t; the right operand's block stays at the origin; nothing moves along the columns. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every block of rows is some point's. -/
theorem idx_onto : ∀ q0 : Fin 20, ∃ t : Fin cfg1.N, win1_2.index t = ![q0.val, 0] :=
  (by decide +kernel : ∀ q0 : Fin 20, ∃ t : Fin grid1.N, win1_2.index t = ![q0.val, 0])

variable (V : (c : Dev nD) → (b : Ref sig .tc) → Buf (Elt Ideal) ((c : Thread nD τ).loc b))

/-- What point t writes back is block t of the whole product of the operand arrays as the region finds them. -/
theorem flushed_eq (c : Dev nD) (t : Fin cfg1.N) :
    (dat1 V c).flushed 2 t = ((cfg1.win 2).blk t).view.read (Elt Ideal) (prod (V c main_v49) (V c main_arg5)) := by
  show (cfg1.win 2).cut (grid1.coords t) ((dat1 V c).after 2 t) = _
  rw [after1_2]
  unfold out1_2
  rw [View.canon_unit_zero hz]
  simp only [View.ld_unit_zero (S := S5000x16) hz, View.ld_unit_zero (S := S16x16) hz]
  obtain ⟨e0, e1, e2, e3, e4, e5⟩ := idx_facts t
  refine funext fun (j : S5000x16.Idx) => ?_
  obtain ⟨p, q, rfl⟩ : ∃ (p : Fin 5000) (q : Fin 16), j = ix2 p q := ⟨j 0, j 1, eq_ix2 j⟩
  have ha : win1_2.index t (0 : Fin 2) * 5000 + p.val < 100000 := by have := p.isLt; omega
  have hi : ((cfg1.win 2).blk t).view.emb (ix2 p q) = (ix2 (⟨win1_2.index t (0 : Fin 2) * 5000 + p.val, ha⟩ : Fin 100000) q : S100000x16.Idx) := by
    funext ax; apply Fin.ext
    match ax with
    | ⟨0, _⟩ => show win1_2.index t (0 : Fin 2) * 5000 + 1 * p.val = win1_2.index t (0 : Fin 2) * 5000 + p.val; omega
    | ⟨1, _⟩ => show win1_2.index t (1 : Fin 2) * 16 + 1 * q.val = q.val; omega
  show k1_pay1 (F := Ideal) (iblk1 V c 0 t) (iblk1 V c 1 t) (ix2 p q) = prod (V c main_v49) (V c main_arg5) (((cfg1.win 2).blk t).view.emb (ix2 p q))
  rw [hi]
  refine pay_eq (iblk1 V c 0 t) (iblk1 V c 1 t) (V c main_v49) (V c main_arg5) p q _ (fun k => ?_) (fun k => ?_)
  · show V c main_v49 (((cfg1.win 0).blk t).view.emb (ix2 p k)) = V c main_v49 (ix2 (⟨win1_2.index t (0 : Fin 2) * 5000 + p.val, ha⟩ : Fin 100000) k)
    refine congrArg (V c main_v49) ?_
    funext ax; apply Fin.ext
    match ax with
    | ⟨0, _⟩ => show win1_0.index t (0 : Fin 2) * 5000 + 1 * p.val = win1_2.index t (0 : Fin 2) * 5000 + p.val; omega
    | ⟨1, _⟩ => show win1_0.index t (1 : Fin 2) * 16 + 1 * k.val = k.val; omega
  · show V c main_arg5 (((cfg1.win 1).blk t).view.emb (ix2 k q)) = V c main_arg5 (ix2 k q)
    refine congrArg (V c main_arg5) ?_
    funext ax; apply Fin.ext
    match ax with
    | ⟨0, _⟩ => show win1_1.index t (0 : Fin 2) * 16 + 1 * k.val = k.val; omega
    | ⟨1, _⟩ => show win1_1.index t (1 : Fin 2) * 16 + 1 * q.val = q.val; omega

/-- An index of the output array is in point t's block iff each coordinate is in the block's range on its axis. -/
theorem mem_blk (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v50).slice (win1_2.rect t)).set ↔ _
  rw [View.set_slice_whole, Rect.mem_set_unit]
  exact Iff.rfl

/-- The array after the region: the whole product of the operand arrays as the region finds them. -/
theorem final (c : Dev nD) : (dat1 V c).arrAt 2 cfg1.N = prod (V c main_v49) (V c main_arg5) :=
  (dat1 V c).arrAt_eq_of_cover 2 (prod (V c main_v49) (V c main_arg5)) (fun t _ => flushed_eq V c t) fun i => by
    have hi0 : (i 0).val < 100000 := (i 0).isLt
    have hi1 : (i 1).val < 16 := (i 1).isLt
    obtain ⟨t, ht⟩ := idx_onto ⟨(i 0).val / 5000, by omega⟩
    have q0 : win1_2.index t (0 : Fin 2) = (i 0).val / 5000 := congrFun ht 0
    have q1 : win1_2.index t (1 : Fin 2) = 0 := congrFun ht 1
    refine ⟨t, flush1_2 t, ?_⟩
    rw [mem_blk]
    intro a
    match a with
    | ⟨0, _⟩ => show win1_2.index t (0 : Fin 2) * 5000 ≤ (i 0).val ∧ (i 0).val < win1_2.index t (0 : Fin 2) * 5000 + 5000; omega
    | ⟨1, _⟩ => show win1_2.index t (1 : Fin 2) * 16 ≤ (i 1).val ∧ (i 1).val < win1_2.index t (1 : Fin 2) * 16 + 16; omega

end Cert.KernelIdeal.Dense1

end
-- ==== Proof.KernelValue.lean ====
/-
  The kernel's result: the network of Gcn.lean with both dense products the whole-array products.

  The run's last boundary holds the result array as a fold of the three host stretches and the two regions'
  write-backs over the launch memory. Read backwards: the last stretch is a convolution and a log-softmax of what the
  second region left; that region left the product of the second stretch's result by W2; the second stretch is a
  convolution and a relu of what the first region left; that region left the product x·W1; and the edge arrays, built
  by the first stretch, and the arguments pass every later stretch and region untouched.
-/
import proofs.«143029_j62955630625290_1_alg».proof.Proof.KernelRun
import proofs.«143029_j62955630625290_1_alg».proof.Proof.HostStages0
import proofs.«143029_j62955630625290_1_alg».proof.Proof.HostStages1
import proofs.«143029_j62955630625290_1_alg».proof.Proof.HostStages2
import proofs.«143029_j62955630625290_1_alg».proof.Proof.Dense0
import proofs.«143029_j62955630625290_1_alg».proof.Proof.Dense1

set_option maxRecDepth 16384

noncomputable section

namespace Cert.KernelIdeal.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## The edge arrays, from the first stretch to the last region's exit -/

theorem row1 (c : Dev nD) : W1 m ρ c (Proc.devRef .tc main_v3) = Gcn.rowOf (m ((c : Thread nD τ).loc main_arg1)) :=
  HostStages.s0_row (W0 m ρ c)
theorem col1 (c : Dev nD) : W1 m ρ c (Proc.devRef .tc main_v6) = Gcn.colOf (m ((c : Thread nD τ).loc main_arg1)) :=
  HostStages.s0_col (W0 m ρ c)
theorem ew1 (c : Dev nD) : W1 m ρ c (Proc.devRef .tc main_v8) = Gcn.ewOf (m ((c : Thread nD τ).loc main_arg2)) :=
  HostStages.s0_ew (W0 m ρ c)

theorem row2 (c : Dev nD) : W2 m ρ c (Proc.devRef .tc main_v3) = Gcn.rowOf (m ((c : Thread nD τ).loc main_arg1)) :=
  (W2_of_ne m ρ c main_v3 (by decide)).trans (row1 m ρ c)
theorem col2 (c : Dev nD) : W2 m ρ c (Proc.devRef .tc main_v6) = Gcn.colOf (m ((c : Thread nD τ).loc main_arg1)) :=
  (W2_of_ne m ρ c main_v6 (by decide)).trans (col1 m ρ c)
theorem ew2 (c : Dev nD) : W2 m ρ c (Proc.devRef .tc main_v8) = Gcn.ewOf (m ((c : Thread nD τ).loc main_arg2)) :=
  (W2_of_ne m ρ c main_v8 (by decide)).trans (ew1 m ρ c)

theorem row7 (c : Dev nD) : W7 m ρ c (Proc.devRef .tc main_v3) = Gcn.rowOf (m ((c : Thread nD τ).loc main_arg1)) :=
  (W7_of_ne m ρ c main_v3 (by decide)).trans ((HostStages.s1_row (W2 m ρ c)).trans (row2 m ρ c))
theorem col7 (c : Dev nD) : W7 m ρ c (Proc.devRef .tc main_v6) = Gcn.colOf (m ((c : Thread nD τ).loc main_arg1)) :=
  (W7_of_ne m ρ c main_v6 (by decide)).trans ((HostStages.s1_col (W2 m ρ c)).trans (col2 m ρ c))
theorem ew7 (c : Dev nD) : W7 m ρ c (Proc.devRef .tc main_v8) = Gcn.ewOf (m ((c : Thread nD τ).loc main_arg2)) :=
  (W7_of_ne m ρ c main_v8 (by decide)).trans ((HostStages.s1_ew (W2 m ρ c)).trans (ew2 m ρ c))

/-! ## The arguments where they are read -/

theorem arg0_1 (c : Dev nD) : W1 m ρ c (Proc.devRef .tc main_arg0) = m ((c : Thread nD τ).loc main_arg0) :=
  HostStages.s0_arg0 (W0 m ρ c)
theorem arg3_1 (c : Dev nD) : W1 m ρ c (Proc.devRef .tc main_arg3) = m ((c : Thread nD τ).loc main_arg3) :=
  HostStages.s0_arg3 (W0 m ρ c)
theorem arg4_2 (c : Dev nD) : W2 m ρ c (Proc.devRef .tc main_arg4) = m ((c : Thread nD τ).loc main_arg4) :=
  (W2_of_ne m ρ c main_arg4 (by decide)).trans (HostStages.s0_arg4 (W0 m ρ c))
theorem arg5_6 (c : Dev nD) : W6 m ρ c (Proc.devRef .tc main_arg5) = m ((c : Thread nD τ).loc main_arg5) :=
  (HostStages.s1_arg5 (W2 m ρ c)).trans ((W2_of_ne m ρ c main_arg5 (by decide)).trans (HostStages.s0_arg5 (W0 m ρ c)))
theorem arg6_7 (c : Dev nD) : W7 m ρ c (Proc.devRef .tc main_arg6) = m ((c : Thread nD τ).loc main_arg6) :=
  (W7_of_ne m ρ c main_arg6 (by decide)).trans ((HostStages.s1_arg6 (W2 m ρ c)).trans
    ((W2_of_ne m ρ c main_arg6 (by decide)).trans (HostStages.s0_arg6 (W0 m ρ c))))

/-! ## The features, region by region and stretch by stretch -/

/-- The first region leaves x·W1. -/
theorem feat9 (c : Dev nD) : W2 m ρ c (Proc.devRef .tc main_v9)
    = Dense0.prod (m ((c : Thread nD τ).loc main_arg0)) (m ((c : Thread nD τ).loc main_arg3)) :=
  (W2_arr m ρ c 2).trans ((Dense0.final (V1 m ρ) c).trans (congrArg₂ Dense0.prod (arg0_1 m ρ c) (arg3_1 m ρ c)))

/-- The second stretch leaves the first layer: a convolution of x·W1 with bias b1, then a relu. -/
theorem feat49 (c : Dev nD) : W6 m ρ c (Proc.devRef .tc main_v49)
    = Gcn.reluOf (Gcn.convOf (Gcn.rowOf (m ((c : Thread nD τ).loc main_arg1))) (Gcn.colOf (m ((c : Thread nD τ).loc main_arg1)))
        (Gcn.ewOf (m ((c : Thread nD τ).loc main_arg2)))
        (Dense0.prod (m ((c : Thread nD τ).loc main_arg0)) (m ((c : Thread nD τ).loc main_arg3))) (m ((c : Thread nD τ).loc main_arg4))) := by
  refine (HostStages.s1_out (W2 m ρ c)).trans ?_
  rw [row2, col2, ew2, feat9, arg4_2]

/-- The second region leaves the first layer times W2. -/
theorem feat50 (c : Dev nD) : W7 m ρ c (Proc.devRef .tc main_v50)
    = Dense1.prod (Gcn.reluOf (Gcn.convOf (Gcn.rowOf (m ((c : Thread nD τ).loc main_arg1))) (Gcn.colOf (m ((c : Thread nD τ).loc main_arg1)))
        (Gcn.ewOf (m ((c : Thread nD τ).loc main_arg2)))
        (Dense0.prod (m ((c : Thread nD τ).loc main_arg0)) (m ((c : Thread nD τ).loc main_arg3))) (m ((c : Thread nD τ).loc main_arg4))))
        (m ((c : Thread nD τ).loc main_arg5)) :=
  (W7_arr m ρ c 2).trans ((Dense1.final (V6 m ρ) c).trans (congrArg₂ Dense1.prod (feat49 m ρ c) (arg5_6 m ρ c)))

/-- The last boundary holds the network of the arguments. -/
theorem result (c : Dev nD) : W11 m ρ c (Proc.devRef .tc main_v90)
    = Gcn.netOf Dense0.prod Dense1.prod (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (HostStages.s2_out (W7 m ρ c)).trans ?_
  rw [row7, col7, ew7, feat50, arg6_7]
  rfl

/-- The kernel's run with its result array at the network of the arguments, the arguments unchanged. -/
theorem run : θ_run defs (onTc (τ := τ) (main (F := Ideal))) ⟨m, fun _ => 0, ρ⟩ (fun r => ∀ c : Dev nD,
      r.2.mem ((c.tc : Thread nD τ).loc main_v90)
        = Gcn.netOf Dense0.prod Dense1.prod (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (GenRun.run_main m ρ)

end Cert.KernelIdeal.KernelValue

end
-- ==== Proof.RefCut.lean ====
/-
  The reference's line of 132 host operations, cut in four.

  The first 10 operations build the edge arrays with their self-loops; the next 55 are the product x·W1, a graph
  convolution of it and a relu; the next 52 are the product by W2 and a graph convolution of it; the last 15 are the
  log-softmax. Running the line from any buffer contents is running the pieces one after the other.
-/
import proofs.«143029_j62955630625290_1_alg».proof.Proof.Gcn
import proofs.«143029_j62955630625290_1_alg».proof.Proof.RefRun
import Idealize.ShloMosaic.Lib.Pipeline.Frame

set_option maxRecDepth 16384

noncomputable section

namespace Cert.ReferenceIdeal.RefValue

open Idealize.ShloMosaic Idealize.ShloMosaic.TcCoe Idealize.ShloMosaic.StableHlo Idealize.SL.Sem
open Cert.ReferenceIdeal Cert.ReferenceIdeal.Gen Cert.ReferenceIdeal.ValueP
open Cert.KernelIdeal (Gcn.rowOf Gcn.colOf Gcn.ewOf Gcn.convOf Gcn.reluOf Gcn.logsmOf Gcn.netOf)

variable {F : FTy → Type} [FloatOps F] (V : Valuation τ sig (Elt F))

/-- The four pieces of the line. -/
abbrev opsA : List (HloOp τ sig (Elt F)) := (ops (F := F)).take 10
abbrev opsB : List (HloOp τ sig (Elt F)) := ((ops (F := F)).drop 10).take 55
abbrev opsC : List (HloOp τ sig (Elt F)) := (((ops (F := F)).drop 10).drop 55).take 52
abbrev opsD : List (HloOp τ sig (Elt F)) := (((ops (F := F)).drop 10).drop 55).drop 52

/-- The line run from `V` is its pieces run one after the other. -/
theorem after_cut : after ops V = after opsD (after opsC (after opsB (after opsA V))) :=
  calc after ops V = after (ops.take 10 ++ ops.drop 10) V := by rw [List.take_append_drop]
    _ = after (ops.drop 10) (after (ops.take 10) V) := StableHlo.after_append _ _ _
    _ = after ((ops.drop 10).take 55 ++ (ops.drop 10).drop 55) (after (ops.take 10) V) := by rw [List.take_append_drop]
    _ = after ((ops.drop 10).drop 55) (after ((ops.drop 10).take 55) (after (ops.take 10) V)) := StableHlo.after_append _ _ _
    _ = after ((((ops.drop 10).drop 55).take 52) ++ (((ops.drop 10).drop 55).drop 52)) (after ((ops.drop 10).take 55) (after (ops.take 10) V)) := by
      rw [List.take_append_drop]
    _ = after opsD (after opsC (after opsB (after opsA V))) := StableHlo.after_append _ _ _

end Cert.ReferenceIdeal.RefValue

end
-- ==== Proof.RefA.lean ====
/-
  The reference's first ten operations, read as a function of the buffers they start from: the edge end points and
  weights with the self-loops appended (Gcn.lean's `rowOf`, `colOf`, `ewOf` of the arguments); the arguments come
  through unchanged.
-/
import proofs.«143029_j62955630625290_1_alg».proof.Proof.RefCut

set_option maxRecDepth 16384

noncomputable section

namespace Cert.ReferenceIdeal.RefValue

open Idealize.ShloMosaic Idealize.ShloMosaic.TcCoe Idealize.ShloMosaic.StableHlo Idealize.SL.Sem
open Cert.ReferenceIdeal Cert.ReferenceIdeal.Gen Cert.ReferenceIdeal.ValueP
open Cert.KernelIdeal (Gcn.rowOf Gcn.colOf Gcn.ewOf Gcn.convOf Gcn.reluOf Gcn.logsmOf Gcn.netOf)

variable {F : FTy → Type} [FloatOps F] (V : Valuation τ sig (Elt F))

/-! ## The first piece: the edge arrays -/

theorem a_row : after opsA V (Proc.devRef .tc main_v3) = Gcn.rowOf (V (Proc.devRef .tc main_arg1)) := by
  simp only [opsA, ops, List.take_succ_cons, List.take_zero]
  after_results <;> rfl
theorem a_col : after opsA V (Proc.devRef .tc main_v6) = Gcn.colOf (V (Proc.devRef .tc main_arg1)) := by
  simp only [opsA, ops, List.take_succ_cons, List.take_zero]
  after_results <;> rfl
theorem a_ew : after opsA V (Proc.devRef .tc main_v8) = Gcn.ewOf (V (Proc.devRef .tc main_arg2)) := by
  simp only [opsA, ops, List.take_succ_cons, List.take_zero]
  after_results <;> rfl

theorem a_arg0 : after opsA V (Proc.devRef .tc main_arg0) = V (Proc.devRef .tc main_arg0) := by
  simp only [opsA, ops, List.take_succ_cons, List.take_zero]; after_results_simp
theorem a_arg3 : after opsA V (Proc.devRef .tc main_arg3) = V (Proc.devRef .tc main_arg3) := by
  simp only [opsA, ops, List.take_succ_cons, List.take_zero]; after_results_simp
theorem a_arg4 : after opsA V (Proc.devRef .tc main_arg4) = V (Proc.devRef .tc main_arg4) := by
  simp only [opsA, ops, List.take_succ_cons, List.take_zero]; after_results_simp
theorem a_arg5 : after opsA V (Proc.devRef .tc main_arg5) = V (Proc.devRef .tc main_arg5) := by
  simp only [opsA, ops, List.take_succ_cons, List.take_zero]; after_results_simp
theorem a_arg6 : after opsA V (Proc.devRef .tc main_arg6) = V (Proc.devRef .tc main_arg6) := by
  simp only [opsA, ops, List.take_succ_cons, List.take_zero]; after_results_simp

end Cert.ReferenceIdeal.RefValue

end
-- ==== Proof.RefB.lean ====
/-
  The reference's operations 11 to 65, read as a function of the buffers they start from: the host's product x·W1, one
  graph convolution of it with bias b1, and a relu (Gcn.lean's `convOf`, `reluOf`). They write only their own
  results: the edge arrays and the arguments read again later come through unchanged.
-/
import proofs.«143029_j62955630625290_1_alg».proof.Proof.RefCut

set_option maxRecDepth 16384
set_option Elab.async false

noncomputable section

namespace Cert.ReferenceIdeal.RefValue

open Idealize.ShloMosaic Idealize.ShloMosaic.TcCoe Idealize.ShloMosaic.StableHlo Idealize.SL.Sem
open Cert.ReferenceIdeal Cert.ReferenceIdeal.Gen Cert.ReferenceIdeal.ValueP
open Cert.KernelIdeal (Gcn.rowOf Gcn.colOf Gcn.ewOf Gcn.convOf Gcn.reluOf Gcn.logsmOf Gcn.netOf)

variable {F : FTy → Type} [FloatOps F] (V : Valuation τ sig (Elt F))

/-! ## The second piece: the product x·W1, a graph convolution of it, a relu -/

set_option maxHeartbeats 4000000 in
theorem b_out : after opsB V (Proc.devRef .tc main_v49)
    = Gcn.reluOf (Gcn.convOf (V (Proc.devRef .tc main_v3)) (V (Proc.devRef .tc main_v6)) (V (Proc.devRef .tc main_v8))
        (Host.dotGeneral (DotDims.plain 100000 512 16) none (V (Proc.devRef .tc main_arg0)) (V (Proc.devRef .tc main_arg3)))
        (V (Proc.devRef .tc main_arg4))) := by
  simp only [opsB, ops, List.drop_succ_cons, List.drop_zero, List.take_succ_cons, List.take_zero]
  after_results_simp
  simp only [TRef.ofBuf, TRef.toBuf, cast_eq]
  rfl

set_option maxHeartbeats 4000000 in
theorem b_row : after opsB V (Proc.devRef .tc main_v3) = V (Proc.devRef .tc main_v3) := by
  simp only [opsB, ops, List.drop_succ_cons, List.drop_zero, List.take_succ_cons, List.take_zero]; after_results_simp
set_option maxHeartbeats 4000000 in
theorem b_col : after opsB V (Proc.devRef .tc main_v6) = V (Proc.devRef .tc main_v6) := by
  simp only [opsB, ops, List.drop_succ_cons, List.drop_zero, List.take_succ_cons, List.take_zero]; after_results_simp
set_option maxHeartbeats 4000000 in
theorem b_ew : after opsB V (Proc.devRef .tc main_v8) = V (Proc.devRef .tc main_v8) := by
  simp only [opsB, ops, List.drop_succ_cons, List.drop_zero, List.take_succ_cons, List.take_zero]; after_results_simp
set_option maxHeartbeats 4000000 in
theorem b_arg5 : after opsB V (Proc.devRef .tc main_arg5) = V (Proc.devRef .tc main_arg5) := by
  simp only [opsB, ops, List.drop_succ_cons, List.drop_zero, List.take_succ_cons, List.take_zero]; after_results_simp
set_option maxHeartbeats 4000000 in
theorem b_arg6 : after opsB V (Proc.devRef .tc main_arg6) = V (Proc.devRef .tc main_arg6) := by
  simp only [opsB, ops, List.drop_succ_cons, List.drop_zero, List.take_succ_cons, List.take_zero]; after_results_simp

end Cert.ReferenceIdeal.RefValue

end
-- ==== Proof.RefC.lean ====
/-
  The reference's last 67 operations, read as functions of the buffers they start from: first the host's product of
  the first layer by W2 and one graph convolution of it with bias b2 (Gcn.lean's `convOf`), left in `%89`; then the
  log-softmax along the 16 features of what is found in `%89` (`logsmOf`).
-/
import proofs.«143029_j62955630625290_1_alg».proof.Proof.RefCut
import proofs.«143029_j62955630625290_1_alg».proof.Proof.LibTypedRef

set_option maxRecDepth 16384

noncomputable section

namespace Cert.ReferenceIdeal.RefValue

open Idealize.ShloMosaic Idealize.ShloMosaic.TcCoe Idealize.ShloMosaic.StableHlo Idealize.SL.Sem
open Cert.ReferenceIdeal Cert.ReferenceIdeal.Gen Cert.ReferenceIdeal.ValueP
open Cert.KernelIdeal (Gcn.rowOf Gcn.colOf Gcn.ewOf Gcn.convOf Gcn.reluOf Gcn.logsmOf Gcn.netOf)

variable {F : FTy → Type} [FloatOps F] (V : Valuation τ sig (Elt F))

/-! ## The third piece: the product by W2 and a graph convolution of it -/

set_option maxHeartbeats 4000000 in
theorem c_out : after opsC V (Proc.devRef .tc main_v89)
    = Gcn.convOf (V (Proc.devRef .tc main_v3)) (V (Proc.devRef .tc main_v6)) (V (Proc.devRef .tc main_v8))
        (Host.dotGeneral (DotDims.plain 100000 16 16) none (V (Proc.devRef .tc main_v49)) (V (Proc.devRef .tc main_arg5)))
        (V (Proc.devRef .tc main_arg6)) := by
  simp only [opsC, ops, List.drop_succ_cons, List.drop_zero, List.take_succ_cons, List.take_zero]
  after_results_simp
  simp only [TRef.ofBuf, TRef.toBuf, cast_eq]
  rfl

/-! ## The fourth piece: the log-softmax -/

set_option maxHeartbeats 4000000 in
theorem d_out : after opsD V (Proc.devRef .tc main_v90) = Gcn.logsmOf (V (Proc.devRef .tc main_v89)) := by
  simp only [opsD, ops, List.drop_succ_cons, List.drop_zero]
  after_results
  simp only [Cert.LibTypedRef.ofBuf_toBuf]
  rfl

end Cert.ReferenceIdeal.RefValue

end
-- ==== Proof.RefValue.lean ====
/-
  The reference's result: the network of Gcn.lean with both dense products the host's `dot_general`.

  The pieces of the line (RefCut.lean) are the same functions the kernel's host stretches are, the products apart,
  and a piece writes only its own results; composed, the result buffer after the whole line is `Gcn.netOf` of the
  argument buffers with the host's two products.
-/
import proofs.«143029_j62955630625290_1_alg».proof.Proof.RefA
import proofs.«143029_j62955630625290_1_alg».proof.Proof.RefB
import proofs.«143029_j62955630625290_1_alg».proof.Proof.RefC

set_option maxRecDepth 16384

noncomputable section

namespace Cert.ReferenceIdeal.RefValue

open Idealize.ShloMosaic Idealize.ShloMosaic.TcCoe Idealize.ShloMosaic.StableHlo Idealize.SL.Sem
open Cert.ReferenceIdeal Cert.ReferenceIdeal.Gen Cert.ReferenceIdeal.ValueP
open Cert.KernelIdeal (Gcn.rowOf Gcn.colOf Gcn.ewOf Gcn.convOf Gcn.reluOf Gcn.logsmOf Gcn.netOf)

variable {F : FTy → Type} [FloatOps F] (V : Valuation τ sig (Elt F))

/-! ## The line whole -/

/-- The result buffer after the whole line, from any contents: the network of the argument buffers. -/
theorem result : after ops V (Proc.devRef .tc main_v90)
    = Gcn.netOf (Host.dotGeneral (DotDims.plain 100000 512 16) none) (Host.dotGeneral (DotDims.plain 100000 16 16) none)
        (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) := by
  rw [after_cut, d_out, c_out, b_out, b_row, b_col, b_ew, b_arg5, b_arg6, a_row, a_col, a_ew, a_arg0, a_arg3, a_arg4, a_arg5, a_arg6]
  rfl

set_option maxRecDepth 16384 in
set_option maxHeartbeats 52800000 in
/-- The reference's run with its result array at the network of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90)
        = Gcn.netOf (Host.dotGeneral (DotDims.plain 100000 512 16) none) (Host.dotGeneral (DotDims.plain 100000 16 16) none)
            (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v90).trans (result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_fold m ρ)

end Cert.ReferenceIdeal.RefValue

end
-- ==== Proof.lean ====
/-
  A two-layer graph-convolution network on 100000 nodes, 3200000 weighted edges and a self-loop per node: the kernel's
  program against its jnp reference, over the extended reals.

  Both programs build the same edge arrays, normalise the edge weights by the in-degrees, carry the node features
  along the edges and sum them at the targets, twice, with a relu between and a log-softmax after (Gcn.lean). They
  differ in the two dense products x·W1 and h·W2 alone: the reference takes each as one host `dot_general`; the kernel
  computes each in a region of 20 grid points, a block of 5000 rows at a point, rounding the operands to bf16 on the
  way into the matrix unit. On the extended reals the rounding is the identity, a block's entry is the same sum of
  products the whole product has there, and the 20 blocks tile the rows (Dense0.lean, Dense1.lean): each region leaves
  the whole product. The host stretches around the regions are, operation for operation, the reference's line cut at
  the two products (HostStages.lean, RefValue.lean), so both results are the one function `Gcn.netOf` of the
  arguments with the products the host's. No algebraic law is needed beyond that, and none that needs finite inputs:
  the precondition is never opened.
-/
import proofs.«143029_j62955630625290_1_alg».proof.Defs
import proofs.«143029_j62955630625290_1_alg».proof.Proof.Gen.Kernel
import proofs.«143029_j62955630625290_1_alg».proof.Proof.Gen.Kernel.Frame
import proofs.«143029_j62955630625290_1_alg».proof.Proof.Gen.KernelIdeal
import proofs.«143029_j62955630625290_1_alg».proof.Proof.Gen.KernelIdeal.Frame
import proofs.«143029_j62955630625290_1_alg».proof.Proof.Gen.ReferenceIdeal
import proofs.«143029_j62955630625290_1_alg».proof.Proof.Gen.Pre_finite_inputs
import proofs.«143029_j62955630625290_1_alg».proof.Proof.KernelValue
import proofs.«143029_j62955630625290_1_alg».proof.Proof.RefValue

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Both programs end at the network of the arguments: the kernel's two regions each leave the whole product, which is
    what the reference's two `dot_general`s are. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5, e6⟩ := hagree c
  rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
